-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512x512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512x1 : Shape := ⟨2, ![512, 1]⟩
abbrev S8x512 : Shape := ⟨2, ![8, 512]⟩
abbrev S8x1 : Shape := ⟨2, ![8, 1]⟩
abbrev S8x512x1 : Shape := ⟨3, ![8, 512, 1]⟩
abbrev S8x1x512 : Shape := ⟨3, ![8, 1, 512]⟩
abbrev S8x512x512 : Shape := ⟨3, ![8, 512, 512]⟩
abbrev S8 : Shape := ⟨1, ![8]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S512x512, .f32⟩
  | .hbm, ⟨1, _⟩ => ⟨S512x512, .i32⟩
  | .hbm, ⟨2, _⟩ => ⟨S512x1, .f32⟩
  | .hbm, ⟨3, _⟩ => ⟨S512x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S512x512, .f32⟩
  | .hbm, ⟨9, _⟩ => ⟨S512x512, .i32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S8x512, .i32⟩
  | .local _ .vmem, ⟨3, _⟩ => ⟨S8x512, .i32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x512, .f32⟩
  | .local _ .vmem, ⟨9, _⟩ => ⟨S8x512, .f32⟩
  | .local _ .vmem, ⟨10, _⟩ => ⟨S8x512, .i32⟩
  | .local _ .vmem, ⟨11, _⟩ => ⟨S8x512, .i32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8x512_S8x512_0_0 : ∀ a, (![0, 0] : Fin 2 → Nat) a + S8x512.size a ≤ S8x512.size a
  h_S8x512 : 0 < S8x512.numel
  natLt_1_32 : 1 < 32
  shapeCasts_S8x512_S8x512x1 : S8x512.ShapeCasts S8x512x1
  shapeCasts_S8x512_S8x1x512 : S8x512.ShapeCasts S8x1x512
  broadcasts_S8x1x512_S8x512x512 : S8x1x512.Broadcasts S8x512x512
  broadcasts_S8x512x1_S8x512x512 : S8x512x1.Broadcasts S8x512x512
  reduces_S8x512x512_S8 : S8x512x512.Reduces [1, 2] S8
  reduces_S8x512_S8 : S8x512.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  reducesTo_S512x1_S_d0_1 : S512x1.ReducesTo [0, 1] S_
  h_S_ : 0 < S_.numel
  transposes_S512x512_S512x512_1_0 : S512x512.Transposes [1, 0] S512x512
  shapeCasts_S8x512_S8x512 : S8x512.ShapeCasts S8x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S512x512.size a
  hwx0_0 : ∀ i : grid0.Coords, EltTy.bits .f32 = 32 ∨ (Rect.block (s := S512x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S512x512.size a
  hwx0_1 : ∀ i : grid0.Coords, EltTy.bits .i32 = 32 ∨ (Rect.block (s := S512x512) S8x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S512x1.size a
  hwx0_2 : ∀ i : grid0.Coords, EltTy.bits .f32 = 32 ∨ (Rect.block (s := S512x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S512x1.size a
  hwx0_3 : ∀ i : grid0.Coords, EltTy.bits .f32 = 32 ∨ (Rect.block (s := S512x1) S8x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S512x512.size a
  hwx1_0 : ∀ i : grid1.Coords, EltTy.bits .f32 = 32 ∨ (Rect.block (s := S512x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S512x512.size a
  hwx1_1 : ∀ i : grid1.Coords, EltTy.bits .i32 = 32 ∨ (Rect.block (s := S512x512) S8x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S512x1.size a
  hwx1_2 : ∀ i : grid1.Coords, EltTy.bits .f32 = 32 ∨ (Rect.block (s := S512x1) S8x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S512x1.size a
  hwx1_3 : ∀ i : grid1.Coords, EltTy.bits .f32 = 32 ∨ (Rect.block (s := S512x1) S8x1.size (cc1_transform_3 i) (hinb1_3 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S8x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S8x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x512 : Shape := ⟨2, ![512, 512]⟩
abbrev S_ : Shape := ⟨0, ![]⟩
abbrev S512x1x512 : Shape := ⟨3, ![512, 1, 512]⟩
abbrev S512x512x1 : Shape := ⟨3, ![512, 512, 1]⟩
abbrev S512x512x512 : Shape := ⟨3, ![512, 512, 512]⟩
abbrev S512 : Shape := ⟨1, ![512]⟩

abbrev nBuf : Space → Nat
  | .hbm => 107
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .i32⟩
  | .hbm, ⟨2, _⟩ => ⟨S_, .i32⟩
  | .hbm, ⟨3, _⟩ => ⟨S512x512, .i32⟩
  | .hbm, ⟨4, _⟩ => ⟨S512x512, .i1⟩
  | .hbm, ⟨5, _⟩ => ⟨S512x512, .f32⟩
  | .hbm, ⟨6, _⟩ => ⟨S_, .i32⟩
  | .hbm, ⟨7, _⟩ => ⟨S512x512, .i32⟩
  | .hbm, ⟨8, _⟩ => ⟨S512x512, .i1⟩
  | .hbm, ⟨9, _⟩ => ⟨S512x512, .f32⟩
  | .hbm, ⟨10, _⟩ => ⟨S512x1x512, .f32⟩
  | .hbm, ⟨11, _⟩ => ⟨S_, .f32⟩
  | .hbm, ⟨12, _⟩ => ⟨S512x1x512, .f32⟩
  | .hbm, ⟨13, _⟩ => ⟨S512x1x512, .f32⟩
  | .hbm, ⟨14, _⟩ => ⟨S512x512x1, .f32⟩
  | .hbm, ⟨15, _⟩ => ⟨S512x512x512, .f32⟩
  | .hbm, ⟨16, _⟩ => ⟨S512x512x512, .f32⟩
  | .hbm, ⟨17, _⟩ => ⟨S512x512x512, .f32⟩
  | .hbm, ⟨18, _⟩ => ⟨S_, .f32⟩
  | .hbm, ⟨19, _⟩ => ⟨S512x512x512, .f32⟩
  | .hbm, ⟨20, _⟩ => ⟨S512x512x512, .f32⟩
  | .hbm, ⟨21, _⟩ => ⟨S512x512x1, .f32⟩
  | .hbm, ⟨22, _⟩ => ⟨S512x1x512, .f32⟩
  | .hbm, ⟨23, _⟩ => ⟨S512x512x512, .f32⟩
  | .hbm, ⟨24, _⟩ => ⟨S512x512x512, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S512, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S512x512, .f32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i1⟩
  | .hbm, ⟨57, _⟩ => ⟨S512x512, .f32⟩
  | .hbm, ⟨58, _⟩ => ⟨S_, .i32⟩
  | .hbm, ⟨59, _⟩ => ⟨S512x512, .i32⟩
  | .hbm, ⟨60, _⟩ => ⟨S512x512, .i1⟩
  | .hbm, ⟨61, _⟩ => ⟨S512x512, .f32⟩
  | .hbm, ⟨62, _⟩ => ⟨S512x1x512, .f32⟩
  | .hbm, ⟨63, _⟩ => ⟨S_, .f32⟩
  | .hbm, ⟨64, _⟩ => ⟨S512x1x512, .f32⟩
  | .hbm, ⟨65, _⟩ => ⟨S512x1x512, .f32⟩
  | .hbm, ⟨66, _⟩ => ⟨S512x512x1, .f32⟩
  | .hbm, ⟨67, _⟩ => ⟨S512x512x512, .f32⟩
  | .hbm, ⟨68, _⟩ => ⟨S512x512x512, .f32⟩
  | .hbm, ⟨69, _⟩ => ⟨S512x512x512, .f32⟩
  | .hbm, ⟨70, _⟩ => ⟨S_, .f32⟩
  | .hbm, ⟨71, _⟩ => ⟨S512x512x512, .f32⟩
  | .hbm, ⟨72, _⟩ => ⟨S512x512x512, .f32⟩
  | .hbm, ⟨73, _⟩ => ⟨S512x512x1, .f32⟩
  | .hbm, ⟨74, _⟩ => ⟨S512x1x512, .f32⟩
  | .hbm, ⟨75, _⟩ => ⟨S512x512x512, .f32⟩
  | .hbm, ⟨76, _⟩ => ⟨S512x512x512, .f32⟩
  | .hbm, ⟨77, _⟩ => ⟨S512x512x512, .f32⟩
  | .hbm, ⟨78, _⟩ => ⟨S512x512x512, .f32⟩
  | .hbm, ⟨79, _⟩ => ⟨S_, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S512, .i1⟩
  | .hbm, ⟨89, _⟩ => ⟨S_, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512, .f32⟩
  | .hbm, ⟨94, _⟩ => ⟨S_, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S_, .f32⟩
  | .hbm, ⟨99, _⟩ => ⟨S_, .f32⟩
  | .hbm, ⟨100, _⟩ => ⟨S512, .i32⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call3_cst : Ref sig .tc := ⟨.hbm, 70, rfl⟩
abbrev main_call3_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_call4_v0 : Ref sig .tc := ⟨.hbm, 90, rfl⟩
abbrev main_call4_v1 : Ref sig .tc := ⟨.hbm, 91, rfl⟩
abbrev main_v61 : Ref sig .tc := ⟨.hbm, 92, rfl⟩
abbrev main_v62 : Ref sig .tc := ⟨.hbm, 93, rfl⟩
abbrev main_cst_17 : Ref sig .tc := ⟨.hbm, 94, rfl⟩
abbrev main_call5_v0 : Ref sig .tc := ⟨.hbm, 95, rfl⟩
abbrev main_call5_v1 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_c_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S_S512x1x512 : S_.BroadcastsInDim S512x1x512 (![] : Fin 0 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S512_d1_2 : S512x512x512.ReducesTo [1, 2] S512
  h_S_ : 0 < S_.numel
  reducesTo_S512x512_S512_d1 : S512x512.ReducesTo [1] S512
  bcast_S_S512 : S_.BroadcastsInDim S512 (![] : Fin 0 → Fin S512.rank)
  reducesTo_S512_S_d0 : S512.ReducesTo [0] S_
  natLt_1_32 : 1 < 32
  transposes_S512x512_S512x512_1_0 : S512x512.Transposes [1, 0] S512x512

variable [Facts₀]

class Facts : Prop extends Facts₀ where

variable [Facts]
-- ==== Proof.RowSpec.lean ====
/-
  The row loss both programs compute, stated once over plain index functions, and the two facts about
  sums that join the kernel's arrangement to the reference's.

  For one row of scores `s : Fin 512 → EReal` and labels `l : Fin 512 → BitVec 32`:
  the weight of a position is 1 where its label is 1 (`posOf`) resp. 0 (`negOf`), else 0;
  `rowTot s l = ∑ a, ∑ b, max ((μ + s b) - s a) 0 · (posOf (l a) · negOf (l b))` with μ the margin's word;
  `rowCnt l = (∑ posOf) · (∑ negOf)`; a row is valid when `rowCnt l > 0`, and its mean is
  `rowTot / rowCnt` when valid and 0 otherwise. One side's sum of means and count of valid rows are
  `sideSum`, `sideCount`; the loss is their quotient over both sides (`lossOf`).

  The kernel adds the valid rows' indicator as floats; the reference counts them in 32-bit integers and
  converts the count. `count_eq` says that the two agree: a sum of at most 512 zeros and ones does not wrap.
  `reduceAdd_axes12` and its two corollaries read a sum over the last two axes of a rank-3 array, at one
  index of the first axis, as the double sum over the two coordinates.
-/
import Idealize.ShloMosaic.PureOps.Ideal.Laws
import Idealize.ShloMosaic.Lib.ValueIdx

noncomputable section

open scoped BigOperators

namespace Cert.RowSpec

open Idealize.ShloMosaic Idealize.ShloMosaic.ValueIdx

/-- The margin 0.2 as the f32 word both programs print. -/
abbrev μ : EReal := Ideal.ofBits .f32 0x3E4CCCCD#32
/-- The f32 zero word, unevaluated where both sides carry it. -/
abbrev Z : EReal := Ideal.ofBits .f32 0x00000000#32
/-- The f32 one word. -/
abbrev One : EReal := Ideal.ofBits .f32 0x3F800000#32

/-- 1 where the label is 1, else 0. -/
def posOf (l : BitVec 32) : EReal := FloatOps.uitofp (F := Ideal) .f32 (IntOp.cmpi .eq l 1#32)
/-- 1 where the label is 0, else 0. -/
def negOf (l : BitVec 32) : EReal := FloatOps.uitofp (F := Ideal) .f32 (IntOp.cmpi .eq l 0#32)

/-- The hinge terms of one row, summed over (positive position a, negative position b). -/
def rowTot (s : Fin 512 → EReal) (l : Fin 512 → BitVec 32) : EReal :=
  ∑ a : Fin 512, ∑ b : Fin 512, max ((μ + s b) - s a) Z * (posOf (l a) * negOf (l b))
/-- The number of (positive, negative) pairs of one row. -/
def rowCnt (l : Fin 512 → BitVec 32) : EReal := (∑ k : Fin 512, posOf (l k)) * (∑ k : Fin 512, negOf (l k))
/-- The row has a pair. -/
def rowValid (l : Fin 512 → BitVec 32) : BitVec 1 := Ideal.cmp .ogt (rowCnt l) Z
/-- The row's mean hinge term, 0 for a row without a pair. -/
def rowMean (s : Fin 512 → EReal) (l : Fin 512 → BitVec 32) : EReal :=
  Scalar.select (rowValid l) (Ideal.div (rowTot s l) (Scalar.select (rowValid l) (rowCnt l) One)) Z

abbrev Sq : Shape := ⟨2, ![512, 512]⟩

/-- Row n of a 512 × 512 array. -/
abbrev rowOf {α : Type} (x : Sq.Idx → α) (n : Fin 512) : Fin 512 → α := fun k => x (ix2 n k)

/-- The sum of the rows' means. -/
def sideSum (s : Sq.Idx → EReal) (l : Sq.Idx → BitVec 32) : EReal := ∑ n : Fin 512, rowMean (rowOf s n) (rowOf l n)
/-- The number of valid rows. -/
def sideCount (l : Sq.Idx → BitVec 32) : EReal := ∑ n : Fin 512, FloatOps.uitofp (F := Ideal) .f32 (rowValid (rowOf l n))
/-- The loss: both sides' means over both sides' valid rows. -/
def lossOf (s : Sq.Idx → EReal) (l : Sq.Idx → BitVec 32) (s' : Sq.Idx → EReal) (l' : Sq.Idx → BitVec 32) : EReal :=
  Ideal.div (sideSum s l + sideSum s' l') (sideCount l + sideCount l')

/-! ## One bit widened and converted -/

/-- A bit widened to 32 bits and read signed is the bit read unsigned. -/
theorem sitofp_setWidth_bit (b : BitVec 1) :
    FloatOps.sitofp (F := Ideal) .f32 (b.setWidth 32) = FloatOps.uitofp (F := Ideal) .f32 b := by
  rcases BitVec.eq_zero_or_eq_one b with h | h <;> subst h <;> rfl

/-! ## A sum over the last two axes -/

/-- Of a rank-3 shape's axes, dropping the last two keeps the first. -/
theorem kept_axes12 {N A B : Nat} : (⟨3, ![N, A, B]⟩ : Shape).kept [1, 2] = [0] := rfl

/-- The dropped index's one coordinate is the source index's first. -/
theorem drop_axes12_val {N A B : Nat} (h : (⟨3, ![N, A, B]⟩ : Shape).Reduces [1, 2] ⟨1, ![N]⟩)
    (i : (⟨3, ![N, A, B]⟩ : Shape).Idx) : (h.drop i 0 : Nat) = (i 0 : Nat) :=
  h.drop_apply_val_of_eq i 0 0 (by rw [kept_axes12]; exact Nat.zero_lt_one) (by simp only [kept_axes12]; rfl)

/-- A source index drops to `j` exactly when its first coordinate is `j`'s. -/
theorem drop_axes12_iff {N A B : Nat} (h : (⟨3, ![N, A, B]⟩ : Shape).Reduces [1, 2] ⟨1, ![N]⟩)
    (i : (⟨3, ![N, A, B]⟩ : Shape).Idx) (j : (⟨1, ![N]⟩ : Shape).Idx) :
    h.drop i = j ↔ (i 0 : Fin N) = j 0 := by
  constructor
  · intro e; subst e
    exact Fin.ext (drop_axes12_val h i).symm
  · intro e
    funext b
    match b with
    | ⟨0, _⟩ =>
      apply Fin.ext
      show (h.drop i 0 : Nat) = (j 0 : Nat)
      rw [← e]; exact drop_axes12_val h i

/-- The indices dropping to `j` are `(j 0, a, b)` over all `(a, b)`, so their sum is the double sum. -/
theorem reduceAdd_axes12 {N A B : Nat} (h : (⟨3, ![N, A, B]⟩ : Shape).Reduces [1, 2] ⟨1, ![N]⟩)
    (x : (⟨3, ![N, A, B]⟩ : Shape).Idx → EReal) (j : (⟨1, ![N]⟩ : Shape).Idx) :
    Ideal.reduceAdd h x j = ∑ a : Fin A, ∑ b : Fin B, x (ix3 (j 0) a b) := by
  unfold Ideal.reduceAdd
  rw [← Finset.sum_product']
  refine Finset.sum_nbij' (fun i => ((i 1 : Fin A), (i 2 : Fin B))) (fun p => ix3 (j 0) p.1 p.2) ?_ ?_ ?_ ?_ ?_
  · intro i _; exact Finset.mem_univ _
  · intro p _; exact Finset.mem_filter.2 ⟨Finset.mem_univ _, (drop_axes12_iff h _ j).2 rfl⟩
  · intro i hi
    have e := (drop_axes12_iff h i j).1 (Finset.mem_filter.1 hi).2
    rw [← e]; exact (eq_ix3 i).symm
  · intro p _; rfl
  · intro i hi
    have e := (drop_axes12_iff h i j).1 (Finset.mem_filter.1 hi).2
    rw [← e]; exact congrArg x (eq_ix3 i)

theorem multiReduction_add_axes12 {N A B : Nat} {φ : FTy} (src : FVec Ideal ⟨3, ![N, A, B]⟩ φ) (acc : BitVec φ.bits)
    (h : (⟨3, ![N, A, B]⟩ : Shape).Reduces [1, 2] ⟨1, ![N]⟩) (hφ : FKind.Formats φ) (hacc : acc = FKind.add.neutral φ hφ)
    (j : (⟨1, ![N]⟩ : Shape).Idx) :
    multiReduction .add [1, 2] ⟨1, ![N]⟩ src acc h hφ hacc j = ∑ a : Fin A, ∑ b : Fin B, src (ix3 (j 0) a b) :=
  reduceAdd_axes12 h src j

theorem hostReduceAdd_axes12 {N A B : Nat} (h' : (⟨3, ![N, A, B]⟩ : Shape).ReducesTo [1, 2] ⟨1, ![N]⟩)
    (h : (⟨3, ![N, A, B]⟩ : Shape).Reduces [1, 2] ⟨1, ![N]⟩)
    (x : (⟨3, ![N, A, B]⟩ : Shape).Idx → EReal) (init : EReal) (j : (⟨1, ![N]⟩ : Shape).Idx) :
    Ideal.hostReduceAdd h' x init j = init + ∑ a : Fin A, ∑ b : Fin B, x (ix3 (j 0) a b) := by
  have := reduceAdd_axes12 h x j
  unfold Ideal.reduceAdd at this
  unfold Ideal.hostReduceAdd
  rw [Shape.ReducesTo.drop_eq_drop h' h, this]

/-! ## Counting bits in 32-bit integers -/

/-- A sum of bits over a set of positions below 512 is at most 512. -/
theorem sum_bits_le (f : Fin 512 → BitVec 1) (S : Finset (Fin 512)) : ∑ k ∈ S, (f k).toNat ≤ 512 := by
  calc ∑ k ∈ S, (f k).toNat ≤ ∑ _k ∈ S, 1 :=
        Finset.sum_le_sum (fun k _ => by have := (f k).isLt; omega)
    _ = S.card := by rw [Finset.sum_const, smul_eq_mul, mul_one]
    _ ≤ 512 := by have := Finset.card_le_univ S; rwa [Fintype.card_fin] at this

/-- The 32-bit sum of widened bits over a set of positions below 512 does not wrap: it is the sum of the bits. -/
theorem fold_addi_toNat (f : Fin 512 → BitVec 1) (S : Finset (Fin 512)) :
    (S.fold IntOp.addi 0#32 (fun k => (f k).setWidth 32)).toNat = ∑ k ∈ S, (f k).toNat := by
  classical
  refine Finset.induction_on S ?_ ?_
  · rfl
  · intro a S ha ih
    have hle := sum_bits_le f (insert a S)
    rw [Finset.sum_insert ha] at hle
    have hb := (f a).isLt
    rw [Finset.fold_insert ha, Finset.sum_insert ha]
    show ((f a).setWidth 32 + _).toNat = _
    rw [BitVec.toNat_add, ih, BitVec.toNat_setWidth]
    omega

/-- The real of a finite sum of naturals, as an extended real, is the sum of the terms' extended reals. -/
theorem coe_sum_nat {ι : Type} (S : Finset ι) (g : ι → ℕ) :
    (((∑ k ∈ S, g k : ℕ) : ℝ) : EReal) = ∑ k ∈ S, (((g k : ℕ) : ℝ) : EReal) := by
  classical
  refine Finset.induction_on S ?_ ?_
  · simp
  · intro a S ha ih
    rw [Finset.sum_insert ha, Finset.sum_insert ha, Nat.cast_add, EReal.coe_add, ih]

/-- The 32-bit sum of n ≤ 512 widened bits, read signed and converted, is the sum of the bits converted:
    the sum is at most 512 < 2^31, so the signed reading is the unsigned one. -/
theorem count_eq (f : Fin 512 → BitVec 1) :
    FloatOps.sitofp (F := Ideal) .f32 ((Finset.univ : Finset (Fin 512)).fold IntOp.addi 0#32 (fun k => (f k).setWidth 32))
      = ∑ k : Fin 512, FloatOps.uitofp (F := Ideal) .f32 (f k) := by
  have hn := fold_addi_toNat f Finset.univ
  have hle := sum_bits_le f Finset.univ
  show (((((Finset.univ : Finset (Fin 512)).fold IntOp.addi 0#32 (fun k => (f k).setWidth 32)).toInt : ℤ) : ℝ) : EReal)
      = ∑ k : Fin 512, ((((f k).toNat : ℕ) : ℝ) : EReal)
  rw [BitVec.toInt_eq_toNat_of_lt (by rw [hn]; omega), hn, Int.cast_natCast]
  exact coe_sum_nat Finset.univ (fun k => (f k).toNat)

end Cert.RowSpec

end
-- ==== Proof.BlockLemmas.lean ====
/-
  Reading the blocks' operations at coordinates: the unit axes a shape cast adds ([a] → [a, 1], [a, b] → [a, b, 1],
  [a, b] → [a, 1, b]) and the broadcasts along them ([a, 1, c] → [a, b, c], [a, b, 1] → [a, b, c]) read the operand at
  the same coordinates, 0 on the unit axis; a sum over the second axis of a matrix at row i is the sum of row i, and a sum
  over the last two axes at r the double sum over the two coordinates. From these, the hinge terms the kernel lays out over
  an [n, m, m] array and sums are `∑ a, ∑ b, max ((μ + s b) - s a) 0 · (P a · Q b)` (`hinge_sum_apply`), and the guarded
  quotient under the select is the row's mean once bit, total and count at the row are the row's (`rowMean_assemble`).
-/
import proofs.«161127_j86543591015116_1_alg».proof.Proof.RowSpec
import Idealize.ShloMosaic.Lib.Pipeline.Value
import Idealize.ShloMosaic.Lib.ValueLayout

noncomputable section

open scoped BigOperators

namespace Cert.KernelIdeal.Blocks

open Idealize.ShloMosaic Idealize.ShloMosaic.ValueIdx Cert.RowSpec

/-! ## Unit axes added by a shape cast, read at coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## Sums over the trailing axes, read at coordinates -/

/-- A sum over the second axis of an `[a, b]` array, at row `i`, is the sum of that row. -/
theorem multiReduction_add_axis1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext c
  match c with
  | ⟨0, _⟩ => rfl
  | ⟨1, _⟩ => rfl

/-- A sum over the last two axes of an `[N, A, B]` array, at `r`, is the double sum over the two coordinates. -/
theorem multiReduction_add_axes12_ix {N A B : ℕ} {φ : FTy} (src : FVec Ideal ⟨3, ![N, A, B]⟩ φ) (acc : BitVec φ.bits)
    (h : (⟨3, ![N, A, B]⟩ : Shape).Reduces [1, 2] ⟨1, ![N]⟩) (hφ : FKind.Formats φ) (hacc : acc = FKind.add.neutral φ hφ)
    (r : Fin N) :
    multiReduction .add [1, 2] ⟨1, ![N]⟩ src acc h hφ hacc (ix1 r) = ∑ a : Fin A, ∑ b : Fin B, src (ix3 r a b) :=
  multiReduction_add_axes12 src acc h hφ hacc (ix1 r)

/-! ## The row loss assembled from its parts -/

/-- The hinge terms of row r: the kernel's arrangement over an `[n, m, m]` array, summed over the last two axes,
is the double sum over (a, b) of max ((μ + s b) - s a) 0 · (P a · Q b). -/
theorem hinge_sum_apply {n m : ℕ} (x0 P Q : FVec Ideal ⟨2, ![n, m]⟩ .f32)
    (hc1 : (⟨2, ![n, m]⟩ : Shape).ShapeCasts ⟨3, ![n, m, 1]⟩) (hc2 : (⟨2, ![n, m]⟩ : Shape).ShapeCasts ⟨3, ![n, 1, m]⟩)
    (hb1 : (⟨3, ![n, 1, m]⟩ : Shape).Broadcasts ⟨3, ![n, m, m]⟩) (hb2 : (⟨3, ![n, m, 1]⟩ : Shape).Broadcasts ⟨3, ![n, m, m]⟩)
    (hr : (⟨3, ![n, m, m]⟩ : Shape).Reduces [1, 2] ⟨1, ![n]⟩) (acc : BitVec 32) (hφ : FKind.Formats .f32)
    (hacc : acc = FKind.add.neutral .f32 hφ) (r : Fin n) :
    multiReduction .add [1, 2] ⟨1, ![n]⟩
        (mulf
          (maximumf
            (subf
              (broadcastTo ⟨3, ![n, m, m]⟩
                (addf (broadcast ⟨3, ![n, 1, m]⟩ (Scalar.ofBits (F := Ideal) .f32 0x3E4CCCCD#32)) (shapeCast ⟨3, ![n, 1, m]⟩ x0 hc2)) hb1)
              (broadcastTo ⟨3, ![n, m, m]⟩ (shapeCast ⟨3, ![n, m, 1]⟩ x0 hc1) hb2))
            (broadcast ⟨3, ![n, m, m]⟩ (Scalar.ofBits (F := Ideal) .f32 0x00000000#32)))
          (mulf (broadcastTo ⟨3, ![n, m, m]⟩ (shapeCast ⟨3, ![n, m, 1]⟩ P hc1) hb2)
            (broadcastTo ⟨3, ![n, m, m]⟩ (shapeCast ⟨3, ![n, 1, m]⟩ Q hc2) hb1)))
        acc hr hφ hacc (ix1 r)
      = ∑ a : Fin m, ∑ b : Fin m, max ((μ + x0 (ix2 r b)) - x0 (ix2 r a)) Z * (P (ix2 r a) * Q (ix2 r b)) := by
  refine (multiReduction_add_axes12_ix _ acc hr hφ hacc r).trans ?_
  refine Finset.sum_congr rfl fun a _ => Finset.sum_congr rfl fun b _ => ?_
  simp only [mulf_apply, maximumf_apply, subf_apply, addf_apply, broadcast_apply, broadcastTo_a1c_abc_apply,
    broadcastTo_ab1_abc_apply, shapeCast_ab_ab1_apply, shapeCast_ab_a1b_apply]
  rfl

/-- The select, the quotient and the guarded divisor, read at row r, are the row's mean once the bit, the total and
the count at r are the row's. -/
theorem rowMean_assemble {n : ℕ} (c c' : IVec ⟨1, ![n]⟩ 1) (T C : FVec Ideal ⟨1, ![n]⟩ .f32) (r : Fin n)
    (s : Fin 512 → EReal) (l : Fin 512 → BitVec 32)
    (hc : c (ix1 r) = rowValid l) (hc' : c' (ix1 r) = rowValid l) (hT : T (ix1 r) = rowTot s l) (hC : C (ix1 r) = rowCnt l) :
    select c (divf T (select c' C (broadcast ⟨1, ![n]⟩ (Scalar.ofBits (F := Ideal) .f32 0x3F800000#32))))
        (broadcast ⟨1, ![n]⟩ (Scalar.ofBits (F := Ideal) .f32 0x00000000#32)) (ix1 r) = rowMean s l := by
  unfold rowMean
  show Scalar.select (c (ix1 r)) (Ideal.div (T (ix1 r)) (Scalar.select (c' (ix1 r)) (C (ix1 r)) One)) Z = _
  rw [hc, hc', hT, hC]

end Cert.KernelIdeal.Blocks

end
-- ==== Proof.Block0.lean ====
/-
  What one grid point of the first launch stores, read at a row of its 8 × 1 output blocks:
  the mean block at row r is the row loss `rowMean` of row r of the point's score and label blocks,
  the valid block at row r the indicator of `rowValid` of row r of the label block.
-/
import proofs.«161127_j86543591015116_1_alg».proof.Proof.Gen.KernelIdeal.Skeleton
import proofs.«161127_j86543591015116_1_alg».proof.Proof.RowSpec
import Idealize.ShloMosaic.Lib.Pipeline.Value
import Idealize.ShloMosaic.Lib.ValueLayout
import proofs.«161127_j86543591015116_1_alg».proof.Proof.BlockLemmas

noncomputable section

open scoped BigOperators

namespace Cert.KernelIdeal.Blocks

open Idealize.ShloMosaic Idealize.ShloMosaic.ValueIdx Cert.KernelIdeal Cert.KernelIdeal.Gen Cert.RowSpec

/-- The positive weights of the first launch: 1 where the label is 1. -/
theorem k0_pay2_apply (x1 : Vec Ideal S8x512 .i32) (r : Fin 8) (k : Fin 512) :
    k0_pay2 (F := Ideal) x1 (ix2 r k) = posOf (x1 (ix2 r k)) := by
  unfold k0_pay2 posOf
  exact sitofp_setWidth_bit _

/-- The negative weights of the first launch: 1 where the label is 0. -/
theorem k0_pay3_apply (x1 : Vec Ideal S8x512 .i32) (r : Fin 8) (k : Fin 512) :
    k0_pay3 (F := Ideal) x1 (ix2 r k) = negOf (x1 (ix2 r k)) := by
  unfold k0_pay3 negOf
  exact sitofp_setWidth_bit _

/-- The pair count of row r. -/
theorem k0_pay4_apply (x1 : Vec Ideal S8x512 .i32) (r : Fin 8) :
    k0_pay4 (F := Ideal) x1 (ix1 r) = rowCnt (fun k => x1 (ix2 r k)) := by
  unfold k0_pay4 rowCnt
  refine (mulf_apply _ _ _).trans ?_
  refine congrArg₂ (· * ·) ?_ ?_
  · refine (multiReduction_add_axis1 _ _ _ _ _ r).trans ?_
    simp only [k0_pay2_apply]
  · refine (multiReduction_add_axis1 _ _ _ _ _ r).trans ?_
    simp only [k0_pay3_apply]

/-- The valid bit of row r. -/
theorem k0_bit_apply (x1 : Vec Ideal S8x512 .i32) (r : Fin 8) :
    cmpf .ogt (k0_pay4 (F := Ideal) x1) (broadcast S8 (Scalar.ofBits (F := Ideal) .f32 0x00000000#32)) (ix1 r)
      = rowValid (fun k => x1 (ix2 r k)) := by
  unfold rowValid
  show Ideal.cmp .ogt (k0_pay4 (F := Ideal) x1 (ix1 r)) Z = _
  rw [k0_pay4_apply]

/-- The valid indicator of row r, before the unit axis is added. -/
theorem k0_pay5_apply (x1 : Vec Ideal S8x512 .i32) (r : Fin 8) :
    k0_pay5 (F := Ideal) x1 (ix1 r) = FloatOps.uitofp (F := Ideal) .f32 (rowValid (fun k => x1 (ix2 r k))) := by
  unfold k0_pay5
  refine (sitofp_setWidth_bit _).trans ?_
  exact congrArg (FloatOps.uitofp (F := Ideal) .f32) (k0_bit_apply x1 r)

/-- The mean block at row r is the row loss of row r of the two input blocks. -/
theorem mean0 (x0 : Vec Ideal S8x512 .f32) (x1 : Vec Ideal S8x512 .i32) (r : Fin 8) :
    k0_pay6 (F := Ideal) x0 x1 (ix2 r (0 : Fin 1))
      = rowMean (fun k => x0 (ix2 r k)) (fun k => x1 (ix2 r k)) := by
  unfold k0_pay6
  refine (shapeCast_a_a1_apply _ _ r 0).trans ?_
  refine rowMean_assemble _ _ _ _ r _ _ (k0_bit_apply x1 r) (k0_bit_apply x1 r) ?_ (k0_pay4_apply x1 r)
  refine (hinge_sum_apply x0 (k0_pay2 (F := Ideal) x1) (k0_pay3 (F := Ideal) x1) _ _ _ _ _ _ _ _ r).trans ?_
  unfold rowTot
  simp only [k0_pay2_apply, k0_pay3_apply]

/-- The valid block at row r is 1 when row r of the label block has a (positive, negative) pair, else 0. -/
theorem valid0 (x1 : Vec Ideal S8x512 .i32) (r : Fin 8) :
    k0_pay1 (F := Ideal) (k0_pay5 (F := Ideal) x1) (ix2 r (0 : Fin 1))
      = FloatOps.uitofp (F := Ideal) .f32 (rowValid (fun k => x1 (ix2 r k))) := by
  unfold k0_pay1
  exact (shapeCast_a_a1_apply _ _ r 0).trans (k0_pay5_apply x1 r)

end Cert.KernelIdeal.Blocks

end
-- ==== Proof.Block1.lean ====
/-
  What one grid point of the second launch stores, read at a row of its 8 × 1 output blocks:
  the mean block at row r is the row loss `rowMean` of row r of the point's score and label blocks,
  the valid block at row r the indicator of `rowValid` of row r of the label block.
-/
import proofs.«161127_j86543591015116_1_alg».proof.Proof.Gen.KernelIdeal.Skeleton
import proofs.«161127_j86543591015116_1_alg».proof.Proof.RowSpec
import Idealize.ShloMosaic.Lib.Pipeline.Value
import Idealize.ShloMosaic.Lib.ValueLayout
import proofs.«161127_j86543591015116_1_alg».proof.Proof.BlockLemmas

noncomputable section

open scoped BigOperators

namespace Cert.KernelIdeal.Blocks

open Idealize.ShloMosaic Idealize.ShloMosaic.ValueIdx Cert.KernelIdeal Cert.KernelIdeal.Gen Cert.RowSpec

/-- The label block cast to its own shape is the label block. -/
theorem k1_pay3_eq (x1 : Vec Ideal S8x512 .i32) : k1_pay3 (F := Ideal) x1 = x1 := by
  unfold k1_pay3
  exact shapeCast_self x1 _

/-- The positive weights of the second launch: 1 where the label is 1. -/
theorem k1_pay4_apply (x1 : Vec Ideal S8x512 .i32) (r : Fin 8) (k : Fin 512) :
    k1_pay4 (F := Ideal) x1 (ix2 r k) = posOf (x1 (ix2 r k)) := by
  unfold k1_pay4 posOf
  refine (sitofp_setWidth_bit _).trans ?_
  show FloatOps.uitofp (F := Ideal) .f32 (IntOp.cmpi .eq (k1_pay3 (F := Ideal) x1 (ix2 r k)) 1#32) = _
  rw [k1_pay3_eq]

/-- The negative weights of the second launch: 1 where the label is 0. -/
theorem k1_pay5_apply (x1 : Vec Ideal S8x512 .i32) (r : Fin 8) (k : Fin 512) :
    k1_pay5 (F := Ideal) x1 (ix2 r k) = negOf (x1 (ix2 r k)) := by
  unfold k1_pay5 negOf
  refine (sitofp_setWidth_bit _).trans ?_
  show FloatOps.uitofp (F := Ideal) .f32 (IntOp.cmpi .eq (k1_pay3 (F := Ideal) x1 (ix2 r k)) 0#32) = _
  rw [k1_pay3_eq]

/-- The pair count of row r. -/
theorem k1_pay6_apply (x1 : Vec Ideal S8x512 .i32) (r : Fin 8) :
    k1_pay6 (F := Ideal) x1 (ix1 r) = rowCnt (fun k => x1 (ix2 r k)) := by
  unfold k1_pay6 rowCnt
  refine (mulf_apply _ _ _).trans ?_
  refine congrArg₂ (· * ·) ?_ ?_
  · refine (multiReduction_add_axis1 _ _ _ _ _ r).trans ?_
    simp only [k1_pay4_apply]
  · refine (multiReduction_add_axis1 _ _ _ _ _ r).trans ?_
    simp only [k1_pay5_apply]

/-- The valid bit of row r. -/
theorem k1_bit_apply (x1 : Vec Ideal S8x512 .i32) (r : Fin 8) :
    cmpf .ogt (k1_pay6 (F := Ideal) x1) (broadcast S8 (Scalar.ofBits (F := Ideal) .f32 0x00000000#32)) (ix1 r)
      = rowValid (fun k => x1 (ix2 r k)) := by
  unfold rowValid
  show Ideal.cmp .ogt (k1_pay6 (F := Ideal) x1 (ix1 r)) Z = _
  rw [k1_pay6_apply]

/-- The valid indicator of row r, before the unit axis is added. -/
theorem k1_pay7_apply (x1 : Vec Ideal S8x512 .i32) (r : Fin 8) :
    k1_pay7 (F := Ideal) x1 (ix1 r) = FloatOps.uitofp (F := Ideal) .f32 (rowValid (fun k => x1 (ix2 r k))) := by
  unfold k1_pay7
  refine (sitofp_setWidth_bit _).trans ?_
  exact congrArg (FloatOps.uitofp (F := Ideal) .f32) (k1_bit_apply x1 r)

/-- The select's condition at row r is the row's valid bit. -/
theorem k1_pay8_apply (x1 : Vec Ideal S8x512 .i32) (r : Fin 8) :
    k1_pay8 (F := Ideal) x1 (ix1 r) = rowValid (fun k => x1 (ix2 r k)) := by
  unfold k1_pay8
  exact k1_bit_apply x1 r

/-- The mean block at row r is the row loss of row r of the two input blocks. -/
theorem mean1 (x0 : Vec Ideal S8x512 .f32) (x1 : Vec Ideal S8x512 .i32) (r : Fin 8) :
    k1_pay1 (F := Ideal) (k1_pay8 (F := Ideal) x1) (k1_pay9 (F := Ideal) x0 x1) (k1_pay10 (F := Ideal)) (ix2 r (0 : Fin 1))
      = rowMean (fun k => x0 (ix2 r k)) (fun k => x1 (ix2 r k)) := by
  unfold k1_pay1 k1_pay9 k1_pay10
  refine (shapeCast_a_a1_apply _ _ r 0).trans ?_
  refine rowMean_assemble _ _ _ _ r _ _ (k1_pay8_apply x1 r) (k1_bit_apply x1 r) ?_ (k1_pay6_apply x1 r)
  refine (hinge_sum_apply _ (k1_pay4 (F := Ideal) x1) (k1_pay5 (F := Ideal) x1) _ _ _ _ _ _ _ _ r).trans ?_
  unfold rowTot
  simp only [k1_pay4_apply, k1_pay5_apply, shapeCast_self]

/-- The valid block at row r is 1 when row r of the label block has a (positive, negative) pair, else 0. -/
theorem valid1 (x1 : Vec Ideal S8x512 .i32) (r : Fin 8) :
    k1_pay2 (F := Ideal) (k1_pay7 (F := Ideal) x1) (ix2 r (0 : Fin 1))
      = FloatOps.uitofp (F := Ideal) .f32 (rowValid (fun k => x1 (ix2 r k))) := by
  unfold k1_pay2
  exact (shapeCast_a_a1_apply _ _ r 0).trans (k1_pay7_apply x1 r)

end Cert.KernelIdeal.Blocks

end
-- ==== Proof.KernelValue.lean ====
/-
  The kernel program's result as a function of its arguments.

  Each launch runs the row kernel on 64 grid points of 8 rows: point t reads rows 8t … 8t+7 of a score array and a label
  array and writes the 8 rows' means and validity indicators (`mean0`, `valid0`, `mean1`, `valid1`: one row of a block
  gives `rowMean` / `rowValid` of that row). The points' blocks tile the two 512 × 1 outputs, so after a launch they hold
  `meanArr s l` and `validArr l` of the arrays the launch was entered with. The first launch is entered with the arguments,
  the second with their transposes, which the host wrote between the launches. The host then sums each output (a sum over
  512 × 1 indices is the sum over the 512 rows), adds the two sides and divides: `lossOf` of the arguments and their
  transposes.
-/
import proofs.«161127_j86543591015116_1_alg».proof.Proof.KernelRun
import proofs.«161127_j86543591015116_1_alg».proof.Proof.Block0
import proofs.«161127_j86543591015116_1_alg».proof.Proof.Block1
import proofs.«161127_j86543591015116_1_alg».proof.Proof.RowSpec
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.RowSpec

theorem hz : (![0, 0] : Fin 2 → Nat) = fun _ => 0 := funext fun a => by fin_cases a <;> rfl

/-- One side's row means as a 512 × 1 array. -/
def meanArr (s : Sq.Idx → EReal) (l : Sq.Idx → BitVec 32) : (⟨2, ![512, 1]⟩ : Shape).Idx → EReal :=
  fun i => rowMean (rowOf s (i 0)) (rowOf l (i 0))
/-- One side's valid-row indicators as a 512 × 1 array. -/
def validArr (l : Sq.Idx → BitVec 32) : (⟨2, ![512, 1]⟩ : Shape).Idx → EReal :=
  fun i => FloatOps.uitofp (F := Ideal) .f32 (rowValid (rowOf l (i 0)))

/-! ## The stored blocks at any index of the 8 × 1 block -/

theorem mean0_at (x0 : Vec Ideal S8x512 .f32) (x1 : Vec Ideal S8x512 .i32) (j : S8x1.Idx) :
    k0_pay6 (F := Ideal) x0 x1 j = rowMean (fun k => x0 (ix2 (j 0) k)) (fun k => x1 (ix2 (j 0) k)) := by
  obtain ⟨r, q, rfl⟩ : ∃ (r : Fin 8) (q : Fin 1), j = ix2 r q := ⟨j 0, j 1, eq_ix2 j⟩
  obtain rfl : q = 0 := Subsingleton.elim _ _
  exact Blocks.mean0 x0 x1 r

theorem valid0_at (x1 : Vec Ideal S8x512 .i32) (j : S8x1.Idx) :
    k0_pay1 (F := Ideal) (k0_pay5 (F := Ideal) x1) j = FloatOps.uitofp (F := Ideal) .f32 (rowValid (fun k => x1 (ix2 (j 0) k))) := by
  obtain ⟨r, q, rfl⟩ : ∃ (r : Fin 8) (q : Fin 1), j = ix2 r q := ⟨j 0, j 1, eq_ix2 j⟩
  obtain rfl : q = 0 := Subsingleton.elim _ _
  exact Blocks.valid0 x1 r

theorem mean1_at (x0 : Vec Ideal S8x512 .f32) (x1 : Vec Ideal S8x512 .i32) (j : S8x1.Idx) :
    k1_pay1 (F := Ideal) (k1_pay8 (F := Ideal) x1) (k1_pay9 (F := Ideal) x0 x1) (k1_pay10 (F := Ideal)) j
      = rowMean (fun k => x0 (ix2 (j 0) k)) (fun k => x1 (ix2 (j 0) k)) := by
  obtain ⟨r, q, rfl⟩ : ∃ (r : Fin 8) (q : Fin 1), j = ix2 r q := ⟨j 0, j 1, eq_ix2 j⟩
  obtain rfl : q = 0 := Subsingleton.elim _ _
  exact Blocks.mean1 x0 x1 r

theorem valid1_at (x1 : Vec Ideal S8x512 .i32) (j : S8x1.Idx) :
    k1_pay2 (F := Ideal) (k1_pay7 (F := Ideal) x1) j = FloatOps.uitofp (F := Ideal) .f32 (rowValid (fun k => x1 (ix2 (j 0) k))) := by
  obtain ⟨r, q, rfl⟩ : ∃ (r : Fin 8) (q : Fin 1), j = ix2 r q := ⟨j 0, j 1, eq_ix2 j⟩
  obtain rfl : q = 0 := Subsingleton.elim _ _
  exact Blocks.valid1 x1 r

/-! ## The first launch, entered with the buffers at `V`

Grid point t fetches rows 8t … 8t+7 of its score and label arrays whole (column block 0) and writes rows 8t … 8t+7 of its
two 512 × 1 outputs; the 64 points tile the outputs. -/

section Region0
variable (V : (c : Dev nD) → (b : Ref sig .tc) → Buf (Elt Ideal) ((c : Thread nD τ).loc b))

/-- The printed index maps over the grid: every window's row block index is the point's number, its column block 0. -/
theorem idx_facts0 : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_3.index t (0 : Fin 2) = win0_2.index t (0 : Fin 2)
    ∧ win0_2.index t (1 : Fin 2) = 0 ∧ win0_3.index t (1 : Fin 2) = 0
    ∧ win0_2.index t (0 : Fin 2) = t.val :=
  (by decide +kernel : ∀ t : Fin grid0.N, _)

/-- Row r of the point's input block of window w is row 8t + r of the window's array. -/
theorem row_blk0_0 (c : Dev nD) (t : Fin cfg0.N) (j : ((win0 2).xblock (grid0.coords t)).Idx) (k : Fin 512) :
    iblk0 V c 0 t (ix2 ((cfg0.win 2).xinj (grid0.coords t) j 0) k)
      = rowOf (V c main_arg0) ((((View.whole main_v0_0).slice ((win0 2).rect t)).emb j) 0) k := by
  obtain ⟨e0, e1, e2, e3, e4, e5, e6, e7⟩ := idx_facts0 t
  unfold iblk0
  refine (View.read_apply _ _).trans ((cast_eq _ _).trans ?_)
  show V c main_arg0 _ = V c main_arg0 _
  refine congrArg (V c main_arg0) (funext fun a => Fin.ext ?_)
  match a with
  | ⟨0, _⟩ => show win0_0.index t (0 : Fin 2) * 8 + 1 * (j 0).val = win0_2.index t (0 : Fin 2) * 8 + 1 * (j 0).val; omega
  | ⟨1, _⟩ => show win0_0.index t (1 : Fin 2) * 512 + 1 * k.val = k.val; omega

theorem row_blk0_1 (c : Dev nD) (t : Fin cfg0.N) (j : ((win0 2).xblock (grid0.coords t)).Idx) (k : Fin 512) :
    iblk0 V c 1 t (ix2 ((cfg0.win 2).xinj (grid0.coords t) j 0) k)
      = rowOf (V c main_arg1) ((((View.whole main_v0_0).slice ((win0 2).rect t)).emb j) 0) k := by
  obtain ⟨e0, e1, e2, e3, e4, e5, e6, e7⟩ := idx_facts0 t
  unfold iblk0
  refine (View.read_apply _ _).trans ((cast_eq _ _).trans ?_)
  show V c main_arg1 _ = V c main_arg1 _
  refine congrArg (V c main_arg1) (funext fun a => Fin.ext ?_)
  match a with
  | ⟨0, _⟩ => show win0_1.index t (0 : Fin 2) * 8 + 1 * (j 0).val = win0_2.index t (0 : Fin 2) * 8 + 1 * (j 0).val; omega
  | ⟨1, _⟩ => show win0_1.index t (1 : Fin 2) * 512 + 1 * k.val = k.val; omega

/-- The same through the valid output's block (its rows move with the mean output's). -/
theorem row_blk0_1' (c : Dev nD) (t : Fin cfg0.N) (j : ((win0 3).xblock (grid0.coords t)).Idx) (k : Fin 512) :
    iblk0 V c 1 t (ix2 ((cfg0.win 3).xinj (grid0.coords t) j 0) k)
      = rowOf (V c main_arg1) ((((View.whole main_v0_1).slice ((win0 3).rect t)).emb j) 0) k := by
  obtain ⟨e0, e1, e2, e3, e4, e5, e6, e7⟩ := idx_facts0 t
  unfold iblk0
  refine (View.read_apply _ _).trans ((cast_eq _ _).trans ?_)
  show V c main_arg1 _ = V c main_arg1 _
  refine congrArg (V c main_arg1) (funext fun a => Fin.ext ?_)
  match a with
  | ⟨0, _⟩ => show win0_1.index t (0 : Fin 2) * 8 + 1 * (j 0).val = win0_3.index t (0 : Fin 2) * 8 + 1 * (j 0).val; omega
  | ⟨1, _⟩ => show win0_1.index t (1 : Fin 2) * 512 + 1 * k.val = k.val; omega

/-- What point t writes back to the mean output is block t of the array of row means. -/
theorem flushed0_2 (c : Dev nD) (t : Fin cfg0.N) :
    (dat0 V c).flushed 2 t = ((cfg0.win 2).blk t).view.read (Elt Ideal) (meanArr (V c main_arg0) (V c main_arg1)) := by
  show (cfg0.win 2).cut (grid0.coords t) ((dat0 V c).after 2 t) = _
  rw [after0_2]
  unfold out0_2
  rw [View.canon_unit_zero hz]
  simp only [View.ld_unit_zero (S := S8x512) hz]
  funext j
  refine Eq.trans (mean0_at (iblk0 V c 0 t) (iblk0 V c 1 t) ((cfg0.win 2).xinj (grid0.coords t) j)) ?_
  rw [View.read_apply]
  refine Eq.trans ?_ (cast_eq _ _).symm
  unfold meanArr
  exact congrArg₂ rowMean (funext fun k => row_blk0_0 V c t j k) (funext fun k => row_blk0_1 V c t j k)

/-- What point t writes back to the valid output is block t of the array of valid-row indicators. -/
theorem flushed0_3 (c : Dev nD) (t : Fin cfg0.N) :
    (dat0 V c).flushed 3 t = ((cfg0.win 3).blk t).view.read (Elt Ideal) (validArr (V c main_arg1)) := by
  show (cfg0.win 3).cut (grid0.coords t) ((dat0 V c).after 3 t) = _
  rw [after0_3]
  unfold out0_3
  rw [View.canon_unit_zero hz]
  simp only [View.ld_unit_zero (S := S8x512) hz]
  funext j
  refine Eq.trans (valid0_at (iblk0 V c 1 t) ((cfg0.win 3).xinj (grid0.coords t) j)) ?_
  rw [View.read_apply]
  refine Eq.trans ?_ (cast_eq _ _).symm
  unfold validArr
  exact congrArg (fun l => FloatOps.uitofp (F := Ideal) .f32 (rowValid l)) (funext fun k => row_blk0_1' V c t j k)

/-- Row i of a 512 × 1 output lies in the block of point i / 8. -/
theorem rows_cover0_2 (i : S512x1.Idx) :
    ∃ t : Fin cfg0.N, (cfg0.win 2).flush t = true ∧ i ∈ ((cfg0.win 2).blk t).view.set := by
  have hi0 : (i 0).val < 512 := (i 0).isLt
  have hi1 : (i 1).val < 1 := (i 1).isLt
  have hN : cfg0.N = 64 := N_0
  let t : Fin cfg0.N := ⟨(i 0).val / 8, by rw [hN]; omega⟩
  refine ⟨t, flush0_2 t, ?_⟩
  show i ∈ ((View.whole main_v0_0).slice (win0_2.rect t)).set
  rw [View.set_slice_whole, Rect.mem_set_unit]
  obtain ⟨e0, e1, e2, e3, e4, e5, e6, e7⟩ := idx_facts0 t
  have ht : t.val = (i 0).val / 8 := rfl
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1 ≤ (i 1).val ∧ (i 1).val < win0_2.index t (1 : Fin 2) * 1 + 1; omega

theorem rows_cover0_3 (i : S512x1.Idx) :
    ∃ t : Fin cfg0.N, (cfg0.win 3).flush t = true ∧ i ∈ ((cfg0.win 3).blk t).view.set := by
  have hi0 : (i 0).val < 512 := (i 0).isLt
  have hi1 : (i 1).val < 1 := (i 1).isLt
  have hN : cfg0.N = 64 := N_0
  let t : Fin cfg0.N := ⟨(i 0).val / 8, by rw [hN]; omega⟩
  refine ⟨t, flush0_3 t, ?_⟩
  show i ∈ ((View.whole main_v0_1).slice (win0_3.rect t)).set
  rw [View.set_slice_whole, Rect.mem_set_unit]
  obtain ⟨e0, e1, e2, e3, e4, e5, e6, e7⟩ := idx_facts0 t
  have ht : t.val = (i 0).val / 8 := rfl
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1 ≤ (i 1).val ∧ (i 1).val < win0_3.index t (1 : Fin 2) * 1 + 1; omega

/-- After the launch the mean output holds every row's mean, -/
theorem arr0_2 (c : Dev nD) : (dat0 V c).arrAt 2 cfg0.N = meanArr (V c main_arg0) (V c main_arg1) :=
  (dat0 V c).arrAt_eq_of_cover 2 (meanArr (V c main_arg0) (V c main_arg1)) (fun t _ => flushed0_2 V c t) rows_cover0_2
/-- and the valid output every row's indicator. -/
theorem arr0_3 (c : Dev nD) : (dat0 V c).arrAt 3 cfg0.N = validArr (V c main_arg1) :=
  (dat0 V c).arrAt_eq_of_cover 3 (validArr (V c main_arg1)) (fun t _ => flushed0_3 V c t) rows_cover0_3

end Region0

/-! ## The second launch, entered with the buffers at `V`

Grid point t fetches rows 8t … 8t+7 of its score and label arrays whole (column block 0) and writes rows 8t … 8t+7 of its
two 512 × 1 outputs; the 64 points tile the outputs. -/

section Region1
variable (V : (c : Dev nD) → (b : Ref sig .tc) → Buf (Elt Ideal) ((c : Thread nD τ).loc b))

/-- The printed index maps over the grid: every window's row block index is the point's number, its column block 0. -/
theorem idx_facts1 : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_3.index t (0 : Fin 2) = win1_2.index t (0 : Fin 2)
    ∧ win1_2.index t (1 : Fin 2) = 0 ∧ win1_3.index t (1 : Fin 2) = 0
    ∧ win1_2.index t (0 : Fin 2) = t.val :=
  (by decide +kernel : ∀ t : Fin grid1.N, _)

/-- Row r of the point's input block of window w is row 8t + r of the window's array. -/
theorem row_blk1_0 (c : Dev nD) (t : Fin cfg1.N) (j : ((win1 2).xblock (grid1.coords t)).Idx) (k : Fin 512) :
    iblk1 V c 0 t (ix2 ((cfg1.win 2).xinj (grid1.coords t) j 0) k)
      = rowOf (V c main_v3) ((((View.whole main_v5_0).slice ((win1 2).rect t)).emb j) 0) k := by
  obtain ⟨e0, e1, e2, e3, e4, e5, e6, e7⟩ := idx_facts1 t
  unfold iblk1
  refine (View.read_apply _ _).trans ((cast_eq _ _).trans ?_)
  show V c main_v3 _ = V c main_v3 _
  refine congrArg (V c main_v3) (funext fun a => Fin.ext ?_)
  match a with
  | ⟨0, _⟩ => show win1_0.index t (0 : Fin 2) * 8 + 1 * (j 0).val = win1_2.index t (0 : Fin 2) * 8 + 1 * (j 0).val; omega
  | ⟨1, _⟩ => show win1_0.index t (1 : Fin 2) * 512 + 1 * k.val = k.val; omega

theorem row_blk1_1 (c : Dev nD) (t : Fin cfg1.N) (j : ((win1 2).xblock (grid1.coords t)).Idx) (k : Fin 512) :
    iblk1 V c 1 t (ix2 ((cfg1.win 2).xinj (grid1.coords t) j 0) k)
      = rowOf (V c main_v4) ((((View.whole main_v5_0).slice ((win1 2).rect t)).emb j) 0) k := by
  obtain ⟨e0, e1, e2, e3, e4, e5, e6, e7⟩ := idx_facts1 t
  unfold iblk1
  refine (View.read_apply _ _).trans ((cast_eq _ _).trans ?_)
  show V c main_v4 _ = V c main_v4 _
  refine congrArg (V c main_v4) (funext fun a => Fin.ext ?_)
  match a with
  | ⟨0, _⟩ => show win1_1.index t (0 : Fin 2) * 8 + 1 * (j 0).val = win1_2.index t (0 : Fin 2) * 8 + 1 * (j 0).val; omega
  | ⟨1, _⟩ => show win1_1.index t (1 : Fin 2) * 512 + 1 * k.val = k.val; omega

/-- The same through the valid output's block (its rows move with the mean output's). -/
theorem row_blk1_1' (c : Dev nD) (t : Fin cfg1.N) (j : ((win1 3).xblock (grid1.coords t)).Idx) (k : Fin 512) :
    iblk1 V c 1 t (ix2 ((cfg1.win 3).xinj (grid1.coords t) j 0) k)
      = rowOf (V c main_v4) ((((View.whole main_v5_1).slice ((win1 3).rect t)).emb j) 0) k := by
  obtain ⟨e0, e1, e2, e3, e4, e5, e6, e7⟩ := idx_facts1 t
  unfold iblk1
  refine (View.read_apply _ _).trans ((cast_eq _ _).trans ?_)
  show V c main_v4 _ = V c main_v4 _
  refine congrArg (V c main_v4) (funext fun a => Fin.ext ?_)
  match a with
  | ⟨0, _⟩ => show win1_1.index t (0 : Fin 2) * 8 + 1 * (j 0).val = win1_3.index t (0 : Fin 2) * 8 + 1 * (j 0).val; omega
  | ⟨1, _⟩ => show win1_1.index t (1 : Fin 2) * 512 + 1 * k.val = k.val; omega

/-- What point t writes back to the mean output is block t of the array of row means. -/
theorem flushed1_2 (c : Dev nD) (t : Fin cfg1.N) :
    (dat1 V c).flushed 2 t = ((cfg1.win 2).blk t).view.read (Elt Ideal) (meanArr (V c main_v3) (V c main_v4)) := by
  show (cfg1.win 2).cut (grid1.coords t) ((dat1 V c).after 2 t) = _
  rw [after1_2]
  unfold out1_2
  rw [View.canon_unit_zero hz]
  simp only [View.ld_unit_zero (S := S8x512) hz]
  funext j
  refine Eq.trans (mean1_at (iblk1 V c 0 t) (iblk1 V c 1 t) ((cfg1.win 2).xinj (grid1.coords t) j)) ?_
  rw [View.read_apply]
  refine Eq.trans ?_ (cast_eq _ _).symm
  unfold meanArr
  exact congrArg₂ rowMean (funext fun k => row_blk1_0 V c t j k) (funext fun k => row_blk1_1 V c t j k)

/-- What point t writes back to the valid output is block t of the array of valid-row indicators. -/
theorem flushed1_3 (c : Dev nD) (t : Fin cfg1.N) :
    (dat1 V c).flushed 3 t = ((cfg1.win 3).blk t).view.read (Elt Ideal) (validArr (V c main_v4)) := by
  show (cfg1.win 3).cut (grid1.coords t) ((dat1 V c).after 3 t) = _
  rw [after1_3]
  unfold out1_3
  rw [View.canon_unit_zero hz]
  simp only [View.ld_unit_zero (S := S8x512) hz]
  funext j
  refine Eq.trans (valid1_at (iblk1 V c 1 t) ((cfg1.win 3).xinj (grid1.coords t) j)) ?_
  rw [View.read_apply]
  refine Eq.trans ?_ (cast_eq _ _).symm
  unfold validArr
  exact congrArg (fun l => FloatOps.uitofp (F := Ideal) .f32 (rowValid l)) (funext fun k => row_blk1_1' V c t j k)

/-- Row i of a 512 × 1 output lies in the block of point i / 8. -/
theorem rows_cover1_2 (i : S512x1.Idx) :
    ∃ t : Fin cfg1.N, (cfg1.win 2).flush t = true ∧ i ∈ ((cfg1.win 2).blk t).view.set := by
  have hi0 : (i 0).val < 512 := (i 0).isLt
  have hi1 : (i 1).val < 1 := (i 1).isLt
  have hN : cfg1.N = 64 := N_1
  let t : Fin cfg1.N := ⟨(i 0).val / 8, by rw [hN]; omega⟩
  refine ⟨t, flush1_2 t, ?_⟩
  show i ∈ ((View.whole main_v5_0).slice (win1_2.rect t)).set
  rw [View.set_slice_whole, Rect.mem_set_unit]
  obtain ⟨e0, e1, e2, e3, e4, e5, e6, e7⟩ := idx_facts1 t
  have ht : t.val = (i 0).val / 8 := rfl
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 1 ≤ (i 1).val ∧ (i 1).val < win1_2.index t (1 : Fin 2) * 1 + 1; omega

theorem rows_cover1_3 (i : S512x1.Idx) :
    ∃ t : Fin cfg1.N, (cfg1.win 3).flush t = true ∧ i ∈ ((cfg1.win 3).blk t).view.set := by
  have hi0 : (i 0).val < 512 := (i 0).isLt
  have hi1 : (i 1).val < 1 := (i 1).isLt
  have hN : cfg1.N = 64 := N_1
  let t : Fin cfg1.N := ⟨(i 0).val / 8, by rw [hN]; omega⟩
  refine ⟨t, flush1_3 t, ?_⟩
  show i ∈ ((View.whole main_v5_1).slice (win1_3.rect t)).set
  rw [View.set_slice_whole, Rect.mem_set_unit]
  obtain ⟨e0, e1, e2, e3, e4, e5, e6, e7⟩ := idx_facts1 t
  have ht : t.val = (i 0).val / 8 := rfl
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 1 ≤ (i 1).val ∧ (i 1).val < win1_3.index t (1 : Fin 2) * 1 + 1; omega

/-- After the launch the mean output holds every row's mean, -/
theorem arr1_2 (c : Dev nD) : (dat1 V c).arrAt 2 cfg1.N = meanArr (V c main_v3) (V c main_v4) :=
  (dat1 V c).arrAt_eq_of_cover 2 (meanArr (V c main_v3) (V c main_v4)) (fun t _ => flushed1_2 V c t) rows_cover1_2
/-- and the valid output every row's indicator. -/
theorem arr1_3 (c : Dev nD) : (dat1 V c).arrAt 3 cfg1.N = validArr (V c main_v4) :=
  (dat1 V c).arrAt_eq_of_cover 3 (validArr (V c main_v4)) (fun t _ => flushed1_3 V c t) rows_cover1_3

end Region1

/-! ## The host's sums of the outputs -/

/-- The host's sum of a 512 × 1 array from the zero word is the sum of its 512 rows. -/
theorem sum_rows (A : S512x1.Idx → EReal) :
    Host.reduceAdd (F := Ideal) (φ := .f32) A (constant S_ .f32 0x00000000#32) reducesTo_S512x1_S_d0_1 h_S_
      = fun _ => ∑ n : Fin 512, A (ix2 n (0 : Fin 1)) := by
  funext i
  simp only [Host.reduceAdd, Ideal.hostReduceAdd_def]
  refine (Ideal.hostReduceAdd_total reducesTo_S512x1_S_d0_1 (fun b => b.elim0) A _ i).trans ?_
  show Ideal.ofBits .f32 0x00000000#32 + _ = _
  rw [Ideal.ofBits_zero_f32, zero_add, sum_idx2]
  exact Finset.sum_congr rfl fun n _ => Fin.sum_univ_one _

theorem sum_meanArr (s : Sq.Idx → EReal) (l : Sq.Idx → BitVec 32) :
    Host.reduceAdd (F := Ideal) (φ := .f32) (meanArr s l) (constant S_ .f32 0x00000000#32) reducesTo_S512x1_S_d0_1 h_S_
      = fun _ => sideSum s l :=
  sum_rows (meanArr s l)

theorem sum_validArr (l : Sq.Idx → BitVec 32) :
    Host.reduceAdd (F := Ideal) (φ := .f32) (validArr l) (constant S_ .f32 0x00000000#32) reducesTo_S512x1_S_d0_1 h_S_
      = fun _ => sideCount l :=
  sum_rows (validArr l)

/-! ## The buffers at the segment boundaries -/

variable (m : (ℓ : Loc nD τ sig) → Buf (Elt Ideal) ℓ) (ρ : Dev nD → PrngReg)

/-- The first launch's outputs when it is left. -/
theorem W1_mean (c : Dev nD) : W1 m ρ c (Proc.devRef .tc main_v0_0)
    = meanArr (m ((c : Thread nD τ).loc main_arg0)) (m ((c : Thread nD τ).loc main_arg1)) :=
  (W1_arr m ρ c 2).trans (arr0_2 (V0 m ρ) c)
theorem W1_valid (c : Dev nD) : W1 m ρ c (Proc.devRef .tc main_v0_1)
    = validArr (m ((c : Thread nD τ).loc main_arg1)) :=
  (W1_arr m ρ c 3).trans (arr0_3 (V0 m ρ) c)

/-- The arguments are as launched when the first launch is left. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))

/-- What the host writes between the launches: the first side's two sums and the transposed arguments. -/
theorem W2_v1 (c : Dev nD) : W2 m ρ c (Proc.devRef .tc main_v1)
    = fun _ => sideSum (m ((c : Thread nD τ).loc main_arg0)) (m ((c : Thread nD τ).loc main_arg1)) := by
  dsimp only [W2, hostOps1]
  after_results
  rw [W1_mean]
  exact sum_meanArr _ _
theorem W2_v2 (c : Dev nD) : W2 m ρ c (Proc.devRef .tc main_v2)
    = fun _ => sideCount (m ((c : Thread nD τ).loc main_arg1)) := by
  dsimp only [W2, hostOps1]
  after_results
  rw [W1_valid]
  exact sum_validArr _
theorem W2_v3 (c : Dev nD) : W2 m ρ c (Proc.devRef .tc main_v3)
    = transpose S512x512 [1, 0] (m ((c : Thread nD τ).loc main_arg0)) transposes_S512x512_S512x512_1_0 := by
  dsimp only [W2, hostOps1]
  after_results
  rw [W1_arg0]
theorem W2_v4 (c : Dev nD) : W2 m ρ c (Proc.devRef .tc main_v4)
    = transpose S512x512 [1, 0] (m ((c : Thread nD τ).loc main_arg1)) transposes_S512x512_S512x512_1_0 := by
  dsimp only [W2, hostOps1]
  after_results
  rw [W1_arg1]

/-- The second launch's outputs when it is left: the transposes' row means and indicators. -/
theorem W3_mean (c : Dev nD) : W3 m ρ c (Proc.devRef .tc main_v5_0)
    = meanArr (transpose S512x512 [1, 0] (m ((c : Thread nD τ).loc main_arg0)) transposes_S512x512_S512x512_1_0)
        (transpose S512x512 [1, 0] (m ((c : Thread nD τ).loc main_arg1)) transposes_S512x512_S512x512_1_0) := by
  refine ((W3_arr m ρ c 2).trans (arr1_2 (V2 m ρ) c)).trans ?_
  show meanArr (W2 m ρ c (Proc.devRef .tc main_v3)) (W2 m ρ c (Proc.devRef .tc main_v4)) = _
  rw [W2_v3, W2_v4]
theorem W3_valid (c : Dev nD) : W3 m ρ c (Proc.devRef .tc main_v5_1)
    = validArr (transpose S512x512 [1, 0] (m ((c : Thread nD τ).loc main_arg1)) transposes_S512x512_S512x512_1_0) := by
  refine ((W3_arr m ρ c 3).trans (arr1_3 (V2 m ρ) c)).trans ?_
  show validArr (W2 m ρ c (Proc.devRef .tc main_v4)) = _
  rw [W2_v4]

/-- The first side's sums pass the second launch untouched. -/
theorem W3_v1 (c : Dev nD) : W3 m ρ c (Proc.devRef .tc main_v1)
    = fun _ => sideSum (m ((c : Thread nD τ).loc main_arg0)) (m ((c : Thread nD τ).loc main_arg1)) :=
  (W3_of_ne m ρ c main_v1 (by decide)).trans (W2_v1 m ρ c)
theorem W3_v2 (c : Dev nD) : W3 m ρ c (Proc.devRef .tc main_v2)
    = fun _ => sideCount (m ((c : Thread nD τ).loc main_arg1)) :=
  (W3_of_ne m ρ c main_v2 (by decide)).trans (W2_v2 m ρ c)

/-- The result buffer at the return: the loss of the arguments and their transposes. -/
theorem result_eq (c : Dev nD) : W4 m ρ c (Proc.devRef .tc main_v10)
    = fun _ => lossOf (m ((c : Thread nD τ).loc main_arg0)) (m ((c : Thread nD τ).loc main_arg1))
        (transpose S512x512 [1, 0] (m ((c : Thread nD τ).loc main_arg0)) transposes_S512x512_S512x512_1_0)
        (transpose S512x512 [1, 0] (m ((c : Thread nD τ).loc main_arg1)) transposes_S512x512_S512x512_1_0) := by
  dsimp only [W4, hostOps2]
  after_results
  rw [W3_v1, W3_v2, W3_mean, W3_valid, sum_meanArr, sum_validArr]
  rfl

end Cert.KernelIdeal.KValue

end
-- ==== Proof.RefValue.lean ====
/-
  The reference's result, stage by stage, is the loss `lossOf` of the score and label arrays and their transposes:
  per row the reference forms the same hinge terms, pair counts, validity bit and guarded quotient as `rowMean`,
  sums the means over the rows, counts the valid rows in 32-bit integers (`count_eq`), does the same for the
  transposed arrays, and divides.
-/
import proofs.«161127_j86543591015116_1_alg».proof.Proof.RefRead
import proofs.«161127_j86543591015116_1_alg».proof.Proof.RowSpec
import Idealize.ShloMosaic.Lib.Pipeline.Value
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Gen Cert.ReferenceIdeal.ReadP Cert.RowSpec

/-! ## Side 1, one row at a time -/

/-- The positive weight at a position is `posOf` of its label. -/
theorem pos_apply (x1 : (⟨S512x512, .i32⟩ : BufTy).Contents (Elt Ideal)) (j : S512x512.Idx) :
    val_main_v2 (F := Ideal) x1 j = posOf (x1 j) := by
  rw [val_main_v2_apply, val_main_v1_apply, val_main_v0_apply, val_main_c_apply]
  rfl

/-- The negative weight at a position is `negOf` of its label. -/
theorem neg_apply (x1 : (⟨S512x512, .i32⟩ : BufTy).Contents (Elt Ideal)) (j : S512x512.Idx) :
    val_main_v5 (F := Ideal) x1 j = negOf (x1 j) := by
  rw [val_main_v5_apply, val_main_v4_apply, val_main_v3_apply, val_main_c_0_apply]
  rfl

/-- The number of positives of row n. -/
theorem sum_pos (x1 : (⟨S512x512, .i32⟩ : BufTy).Contents (Elt Ideal)) (n : Fin 512) :
    val_main_v21 (F := Ideal) x1 (ix1 n) = ∑ k : Fin 512, posOf (x1 (ix2 n k)) := by
  rw [val_main_v21_apply, val_main_cst_2_apply, Ideal.ofBits_def, Ideal.ofBits_zero_f32, zero_add]
  refine Finset.sum_congr rfl fun k _ => ?_
  rw [pos_apply]
  exact congrArg (fun j => posOf (x1 j)) (funext fun a => by match a with | ⟨0, _⟩ => rfl | ⟨1, _⟩ => rfl)

/-- The number of negatives of row n. -/
theorem sum_neg (x1 : (⟨S512x512, .i32⟩ : BufTy).Contents (Elt Ideal)) (n : Fin 512) :
    val_main_v22 (F := Ideal) x1 (ix1 n) = ∑ k : Fin 512, negOf (x1 (ix2 n k)) := by
  rw [val_main_v22_apply, val_main_cst_3_apply, Ideal.ofBits_def, Ideal.ofBits_zero_f32, zero_add]
  refine Finset.sum_congr rfl fun k _ => ?_
  rw [neg_apply]
  exact congrArg (fun j => negOf (x1 j)) (funext fun a => by match a with | ⟨0, _⟩ => rfl | ⟨1, _⟩ => rfl)

/-- The pair count of row n. -/
theorem cnt_apply (x1 : (⟨S512x512, .i32⟩ : BufTy).Contents (Elt Ideal)) (n : Fin 512) :
    val_main_v23 (F := Ideal) x1 (ix1 n) = rowCnt (rowOf x1 n) := by
  rw [val_main_v23_apply, sum_pos, sum_neg]
  rfl

/-- The validity bit of row n. -/
theorem row_valid1 (x1 : (⟨S512x512, .i32⟩ : BufTy).Contents (Elt Ideal)) (n : Fin 512) :
    val_main_v25 (F := Ideal) x1 (ix1 n) = rowValid (rowOf x1 n) := by
  rw [val_main_v25_apply, cnt_apply, val_main_v24_apply, val_main_cst_4_apply]
  rfl

/-- The hinge term at (n, a, b). -/
theorem hinge_apply (x0 : (⟨S512x512, .f32⟩ : BufTy).Contents (Elt Ideal)) (n a b : Fin 512) :
    val_main_v13 (F := Ideal) x0 (ix3 n a b) = max ((μ + x0 (ix2 n b)) - x0 (ix2 n a)) Z := by
  rw [val_main_v13_apply, val_main_v12_apply, val_main_v10_apply, val_main_v8_apply, val_main_v7_apply,
    val_main_cst_apply, val_main_v6_apply, val_main_v11_apply, val_main_v9_apply, val_main_call0_v0_apply,
    val_main_call0_cst_apply]
  have e1 : idx_main_v6 (idx_main_v10 (ix3 n a b)) = ix2 n b :=
    funext fun d => by match d with | ⟨0, _⟩ => rfl | ⟨1, _⟩ => rfl
  have e2 : idx_main_v9 (idx_main_v11 (ix3 n a b)) = ix2 n a :=
    funext fun d => by match d with | ⟨0, _⟩ => rfl | ⟨1, _⟩ => rfl
  rw [e1, e2]
  rfl

/-- The pair weight at (n, a, b). -/
theorem weight_apply (x1 : (⟨S512x512, .i32⟩ : BufTy).Contents (Elt Ideal)) (n a b : Fin 512) :
    val_main_v18 (F := Ideal) x1 (ix3 n a b) = posOf (x1 (ix2 n a)) * negOf (x1 (ix2 n b)) := by
  rw [val_main_v18_apply, val_main_v16_apply, val_main_v14_apply, val_main_v17_apply, val_main_v15_apply,
    pos_apply, neg_apply]
  have e1 : idx_main_v14 (idx_main_v16 (ix3 n a b)) = ix2 n a :=
    funext fun d => by match d with | ⟨0, _⟩ => rfl | ⟨1, _⟩ => rfl
  have e2 : idx_main_v15 (idx_main_v17 (ix3 n a b)) = ix2 n b :=
    funext fun d => by match d with | ⟨0, _⟩ => rfl | ⟨1, _⟩ => rfl
  rw [e1, e2]
  rfl

/-- The reference's sum over the last two axes, at row n: the initial value plus the double sum. -/
theorem reduce12_apply (y : (⟨S512x512x512, .f32⟩ : BufTy).Contents (Elt Ideal)) (init : (⟨S_, .f32⟩ : BufTy).Contents (Elt Ideal))
    (n : Fin 512) :
    Host.reduceAdd (F := Ideal) (φ := .f32) (s := S512x512x512) (t := S512) (u := S_) y init
        reducesTo_S512x512x512_S512_d1_2 h_S_ (ix1 n)
      = init (Shape.Idx.first h_S_) + ∑ a : Fin 512, ∑ b : Fin 512, y (ix3 n a b) := by
  simp only [Host.reduceAdd, Ideal.hostReduceAdd_def]
  exact hostReduceAdd_axes12 reducesTo_S512x512x512_S512_d1_2 (by decide) y _ (ix1 n)

/-- The hinge total of row n. -/
theorem tot_apply (x0 : (⟨S512x512, .f32⟩ : BufTy).Contents (Elt Ideal)) (x1 : (⟨S512x512, .i32⟩ : BufTy).Contents (Elt Ideal))
    (n : Fin 512) :
    val_main_v20 (F := Ideal) x0 x1 (ix1 n) = rowTot (rowOf x0 n) (rowOf x1 n) := by
  unfold val_main_v20
  rw [reduce12_apply, val_main_cst_1_apply, Ideal.ofBits_def, Ideal.ofBits_zero_f32, zero_add]
  unfold rowTot
  refine Finset.sum_congr rfl fun a _ => Finset.sum_congr rfl fun b _ => ?_
  rw [val_main_v19_apply, hinge_apply, weight_apply]
  rfl

/-- The mean of row n. -/
theorem row_mean1 (x0 : (⟨S512x512, .f32⟩ : BufTy).Contents (Elt Ideal)) (x1 : (⟨S512x512, .i32⟩ : BufTy).Contents (Elt Ideal))
    (n : Fin 512) :
    val_main_v28 (F := Ideal) x0 x1 (ix1 n) = rowMean (rowOf x0 n) (rowOf x1 n) := by
  rw [val_main_v28_apply, val_main_v27_apply, val_main_v26_apply, row_valid1, tot_apply, cnt_apply,
    val_main_call1_v1_apply, val_main_call1_v0_apply, val_main_cst_5_apply,
    val_main_call2_v1_apply, val_main_call2_v0_apply, val_main_cst_6_apply]
  rfl

/-! ## Side 1, summed over the rows -/

/-- A sum over the one-axis index set is the sum over its coordinate. -/
theorem sum_idx1 (f : S512.Idx → EReal) : ∑ j : S512.Idx, f j = ∑ n : Fin 512, f (ix1 n) := by
  let e : S512.Idx ≃ Fin 512 := ⟨fun i => i 0, fun n => ix1 n, fun i => (eq_ix1 i).symm, fun _ => rfl⟩
  exact (Equiv.sum_comp e.symm f).symm

/-- The sum of the row means. -/
theorem side_sum1 (x0 : (⟨S512x512, .f32⟩ : BufTy).Contents (Elt Ideal)) (x1 : (⟨S512x512, .i32⟩ : BufTy).Contents (Elt Ideal))
    (i : S_.Idx) :
    val_main_v29 (F := Ideal) x0 x1 i = sideSum x0 x1 := by
  rw [val_main_v29_apply, val_main_cst_7_apply, Ideal.ofBits_def, Ideal.ofBits_zero_f32, zero_add, sum_idx1]
  exact Finset.sum_congr rfl fun n _ => row_mean1 x0 x1 n

/-- A fold over the one-axis index set is the fold over its coordinate. -/
theorem fold_idx1 {α : Type} (op : α → α → α) [Std.Commutative op] [Std.Associative op] (b : α) (x : S512.Idx → α) :
    (Finset.univ : Finset S512.Idx).fold op b x = (Finset.univ : Finset (Fin 512)).fold op b (fun k => x (ix1 k)) := by
  let e : Fin 512 ≃ S512.Idx := ⟨fun n => ix1 n, fun i => i 0, fun _ => rfl, fun i => (eq_ix1 i).symm⟩
  rw [← Finset.map_univ_equiv e, Finset.fold_map]
  rfl

/-- The count of valid rows, taken in 32-bit integers and converted: every row index drops to the one
    index of the rank-zero result, so the fold runs over all 512 rows. -/
theorem side_count1 (x1 : (⟨S512x512, .i32⟩ : BufTy).Contents (Elt Ideal)) (i : S_.Idx) :
    val_main_v32 (F := Ideal) x1 i = sideCount x1 := by
  rw [val_main_v32_apply]
  unfold val_main_v31
  rw [Host.reduce_eq_fold IntOp.addi _ _ reducesTo_S512_S_d0 h_S_ i,
    Finset.filter_true_of_mem fun j _ => funext fun b => b.elim0, fold_idx1]
  have hf : (fun k : Fin 512 => val_main_v30 (F := Ideal) x1 (ix1 k))
      = fun k : Fin 512 => (rowValid (rowOf x1 k)).setWidth 32 :=
    funext fun k => by rw [val_main_v30_apply, row_valid1]
  rw [hf]
  exact count_eq fun k => rowValid (rowOf x1 k)

/-! ## Side 2 is side 1 on the transposes -/

/-- The second side's sum of row means is the first side's at the transposed arrays, stage for stage. -/
theorem v64_eq (x0 : (⟨S512x512, .f32⟩ : BufTy).Contents (Elt Ideal)) (x1 : (⟨S512x512, .i32⟩ : BufTy).Contents (Elt Ideal)) :
    val_main_v64 (F := Ideal) x0 x1 = val_main_v29 (F := Ideal) (val_main_v33 x0) (val_main_v34 x1) := rfl

/-- The second side's count of valid rows is the first side's at the transposed labels, stage for stage. -/
theorem v67_eq (x1 : (⟨S512x512, .i32⟩ : BufTy).Contents (Elt Ideal)) :
    val_main_v67 (F := Ideal) x1 = val_main_v32 (F := Ideal) (val_main_v34 x1) := rfl

/-- The reference's last stage is the loss of the two arrays and their transposes. -/
theorem val_eq (x0 : (⟨S512x512, .f32⟩ : BufTy).Contents (Elt Ideal)) (x1 : (⟨S512x512, .i32⟩ : BufTy).Contents (Elt Ideal)) :
    val_main_v70 (F := Ideal) x0 x1
      = fun _ => lossOf x0 x1 (transpose S512x512 [1, 0] x0 transposes_S512x512_S512x512_1_0)
          (transpose S512x512 [1, 0] x1 transposes_S512x512_S512x512_1_0) := by
  funext i
  rw [val_main_v70_apply, val_main_v68_apply, val_main_v69_apply, v64_eq, v67_eq,
    side_sum1, side_sum1, side_count1, side_count1]
  rfl

end Cert.ReferenceIdeal.RefValue

end
-- ==== Proof.lean ====
/-
  The certificate of the pairwise ranking loss: a Pallas kernel launched twice (on the scores and labels, and on their
  transposes) against the jnp reference.

  Per row both programs form, for every (position a with label 1, position b with label 0), the hinge term
  max((0.2 + s b) − s a, 0), sum the terms, divide by the number of pairs when there is one, and report the row as valid
  when there is one; they sum the rows' means and count the valid rows over both sides and divide (`Cert.RowSpec.lossOf`).
  At the ideal instance the two agree term by term: the kernel's sum over a block's last two axes and the reference's over
  the array's are the same double sum per row (`reduceAdd_axes12`), the kernel's 8-row blocks tile the 512 rows, and the
  kernel's float sum of the validity indicators is the reference's 32-bit count converted (`count_eq`: 512 bits do not
  wrap). No law used needs finite inputs, so the precondition is not opened.

  The three frames: the two kernel programs' are the generated frame certificates; the reference's is its run with the
  result dropped. The ideal pass rewrote nothing, so `preserves` is `True`.
-/
import proofs.«161127_j86543591015116_1_alg».proof.Defs
import proofs.«161127_j86543591015116_1_alg».proof.Proof.Gen.Kernel
import proofs.«161127_j86543591015116_1_alg».proof.Proof.Gen.Kernel.Frame
import proofs.«161127_j86543591015116_1_alg».proof.Proof.Gen.KernelIdeal
import proofs.«161127_j86543591015116_1_alg».proof.Proof.Gen.KernelIdeal.Frame
import proofs.«161127_j86543591015116_1_alg».proof.Proof.Gen.ReferenceIdeal
import proofs.«161127_j86543591015116_1_alg».proof.Proof.Gen.Pre_finite_inputs
import proofs.«161127_j86543591015116_1_alg».proof.Proof.KernelRun
import proofs.«161127_j86543591015116_1_alg».proof.Proof.KernelValue
import proofs.«161127_j86543591015116_1_alg».proof.Proof.RefRun
import proofs.«161127_j86543591015116_1_alg».proof.Proof.RefRead
import proofs.«161127_j86543591015116_1_alg».proof.Proof.RefValue
import Idealize.ShloMosaic.Adequacy
import Idealize.ShloMosaic.Init

noncomputable section

namespace Cert.Proof

open Idealize.ShloMosaic Idealize.ShloMosaic.TcCoe Idealize.SL.Sem Cert.RowSpec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at the loss of the arguments and their transposes. -/
theorem algebraic : Cert.algebraic_KernelIdeal_ReferenceIdeal := by
  intro m ρ m' ρ' _ hagree
  refine ⟨fun c => fun _ => lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (transpose Cert.KernelIdeal.S512x512 [1, 0] (m ((c.tc : Thread Cert.KernelIdeal.nD Cert.KernelIdeal.τ).loc Cert.KernelIdeal.main_arg0))
        Cert.KernelIdeal.Facts₀.transposes_S512x512_S512x512_1_0)
      (transpose Cert.KernelIdeal.S512x512 [1, 0] (m ((c.tc : Thread Cert.KernelIdeal.nD Cert.KernelIdeal.τ).loc Cert.KernelIdeal.main_arg1))
        Cert.KernelIdeal.Facts₀.transposes_S512x512_S512x512_1_0), ?_, ?_⟩
  · exact (θ_run Cert.KernelIdeal.defs _ _).mono
      (fun _ h c => ⟨(h c).1.trans (Cert.KernelIdeal.KValue.result_eq m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v70_eq, Cert.ReferenceIdeal.RefValue.val_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
